-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S32768x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256x16x64 : Shape := ⟨3, ![256, 16, 64]⟩
abbrev S256x16x16 : Shape := ⟨3, ![256, 16, 16]⟩
abbrev S256x16 : Shape := ⟨2, ![256, 16]⟩
abbrev S256x16x1 : Shape := ⟨3, ![256, 16, 1]⟩

abbrev nBuf : Space → Nat
  | .hbm => 22
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1024_S256x16x64 : S256x1024.ShapeCasts S256x16x64
  reduces_S256x16x16_S256x16 : S256x16x16.Reduces [2] S256x16
  shapeCasts_S256x16_S256x16x1 : S256x16.ShapeCasts S256x16x1
  broadcasts_S256x16x1_S256x16x16 : S256x16x1.Broadcasts S256x16x16
  shapeCasts_S256x16x64_S256x1024 : S256x16x64.ShapeCasts S256x1024
  dot_S256x1024_S1024x1024_S256x1024_1_0_0_1_n_n_wf : DotDims.WF S256x1024 S1024x1024 S256x1024 [1] [0] [0] [1] [] []
  dot_S256x16x64_S256x16x64_S256x16x16_2_2_1_1_0_0_wf : DotDims.WF S256x16x64 S256x16x64 S256x16x16 [2] [2] [1] [1] [0] [0]
  dot_S256x16x16_S256x16x64_S256x16x64_2_1_1_2_0_0_wf : DotDims.WF S256x16x16 S256x16x64 S256x16x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S32768x1024.size a
  hwx0_9 : ∀ i : grid0.Coords, EltTy.bits .f32 = 32 ∨ (Rect.block (s := S32768x1024) S256x1024.size (cc0_transform_9 i) (hinb0_9 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x16x64_S256x16x64_S256x16x16_2_2_1_1_0_0 : DotDims S256x16x64 S256x16x64 S256x16x16 where
  lhsContracting := [2]
  rhsContracting := [2]
  lhsNonContracting := [1]
  rhsNonContracting := [1]
  lhsBatch := [0]
  rhsBatch := [0]
  wf := dot_S256x16x64_S256x16x64_S256x16x16_2_2_1_1_0_0_wf
def dot_S256x16x16_S256x16x64_S256x16x64_2_1_1_2_0_0 : DotDims S256x16x16 S256x16x64 S256x16x64 where
  lhsContracting := [2]
  rhsContracting := [1]
  lhsNonContracting := [1]
  rhsNonContracting := [2]
  lhsBatch := [0]
  rhsBatch := [0]
  wf := dot_S256x16x16_S256x16x64_S256x16x64_2_1_1_2_0_0_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S32768x16x64 : Shape := ⟨3, ![32768, 16, 64]⟩
abbrev S32768x16x16 : Shape := ⟨3, ![32768, 16, 16]⟩
abbrev S_ : Shape := ⟨0, ![]⟩
abbrev S32768x16 : Shape := ⟨2, ![32768, 16]⟩
abbrev S32768x16x1 : Shape := ⟨3, ![32768, 16, 1]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S32768x1024, .f32⟩
  | .hbm, ⟨11, _⟩ => ⟨S1x1024, .f32⟩
  | .hbm, ⟨12, _⟩ => ⟨S32768x1024, .f32⟩
  | .hbm, ⟨13, _⟩ => ⟨S32768x1024, .f32⟩
  | .hbm, ⟨14, _⟩ => ⟨S32768x16x64, .f32⟩
  | .hbm, ⟨15, _⟩ => ⟨S1024x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x16x64, .f32⟩
  | .hbm, ⟨21, _⟩ => ⟨S1024x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x16x64, .f32⟩
  | .hbm, ⟨27, _⟩ => ⟨S32768x16x16, .f32⟩
  | .hbm, ⟨28, _⟩ => ⟨S_, .f32⟩
  | .hbm, ⟨29, _⟩ => ⟨S32768x16x16, .f32⟩
  | .hbm, ⟨30, _⟩ => ⟨S32768x16x16, .f32⟩
  | .hbm, ⟨31, _⟩ => ⟨S_, .f32⟩
  | .hbm, ⟨32, _⟩ => ⟨S32768x16, .f32⟩
  | .hbm, ⟨33, _⟩ => ⟨S_, .f32⟩
  | .hbm, ⟨34, _⟩ => ⟨S32768x16, .f32⟩
  | .hbm, ⟨35, _⟩ => ⟨S32768x16, .f32⟩
  | .hbm, ⟨36, _⟩ => ⟨S32768x16x1, .f32⟩
  | .hbm, ⟨37, _⟩ => ⟨S32768x16x16, .f32⟩
  | .hbm, ⟨38, _⟩ => ⟨S32768x16x16, .f32⟩
  | .hbm, ⟨39, _⟩ => ⟨S32768x16x16, .f32⟩
  | .hbm, ⟨40, _⟩ => ⟨S_, .f32⟩
  | .hbm, ⟨41, _⟩ => ⟨S32768x16, .f32⟩
  | .hbm, ⟨42, _⟩ => ⟨S32768x16x1, .f32⟩
  | .hbm, ⟨43, _⟩ => ⟨S32768x16x16, .f32⟩
  | .hbm, ⟨44, _⟩ => ⟨S32768x16x16, .f32⟩
  | .hbm, ⟨45, _⟩ => ⟨S32768x16x64, .f32⟩
  | .hbm, ⟨46, _⟩ => ⟨S32768x1024, .f32⟩
  | .hbm, ⟨47, _⟩ => ⟨S1024x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  shapeCasts_S32768x1024_S32768x16x64 : S32768x1024.ShapeCasts S32768x16x64
  bcast_S_S32768x16x16 : S_.BroadcastsInDim S32768x16x16 (![] : Fin 0 → Fin S32768x16x16.rank)
  reducesTo_S32768x16x16_S32768x16_d2 : S32768x16x16.ReducesTo [2] S32768x16
  h_S_ : 0 < S_.numel
  bcast_S_S32768x16 : S_.BroadcastsInDim S32768x16 (![] : Fin 0 → Fin S32768x16.rank)
  bcast_S32768x16_S32768x16x1_0_1 : S32768x16.BroadcastsInDim S32768x16x1 (![0, 1] : Fin 2 → Fin S32768x16x1.rank)
  bcast_S32768x16x1_S32768x16x16_0_1_2 : S32768x16x1.BroadcastsInDim S32768x16x16 (![0, 1, 2] : Fin 3 → Fin S32768x16x16.rank)
  shapeCasts_S32768x16x64_S32768x1024 : S32768x16x64.ShapeCasts S32768x1024
  dot_S32768x1024_S1024x1024_S32768x1024_1_0_0_1_n_n_wf : DotDims.WF S32768x1024 S1024x1024 S32768x1024 [1] [0] [0] [1] [] []
  dot_S32768x16x64_S32768x16x64_S32768x16x16_2_2_1_1_0_0_wf : DotDims.WF S32768x16x64 S32768x16x64 S32768x16x16 [2] [2] [1] [1] [0] [0]
  dot_S32768x16x16_S32768x16x64_S32768x16x64_2_1_1_2_0_0_wf : DotDims.WF S32768x16x16 S32768x16x64 S32768x16x64 [2] [1] [1] [2] [0] [0]

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x16x64_S32768x16x64_S32768x16x16_2_2_1_1_0_0 : DotDims S32768x16x64 S32768x16x64 S32768x16x16 where
  lhsContracting := [2]
  rhsContracting := [2]
  lhsNonContracting := [1]
  rhsNonContracting := [1]
  lhsBatch := [0]
  rhsBatch := [0]
  wf := dot_S32768x16x64_S32768x16x64_S32768x16x16_2_2_1_1_0_0_wf
def dot_S32768x16x16_S32768x16x64_S32768x16x64_2_1_1_2_0_0 : DotDims S32768x16x16 S32768x16x64 S32768x16x64 where
  lhsContracting := [2]
  rhsContracting := [1]
  lhsNonContracting := [1]
  rhsNonContracting := [2]
  lhsBatch := [0]
  rhsBatch := [0]
  wf := dot_S32768x16x16_S32768x16x64_S32768x16x64_2_1_1_2_0_0_wf

class Facts : Prop extends Facts₀ where

variable [Facts]
-- ==== Proof.KernelContract.lean ====
/-
  The three contractions of the kernel body, each read at one entry of its result as a plain finite sum on the
  extended reals (at the ideal values a product accumulated into zeros is the sum of the operands' products over the
  contracted axis, in no particular order):

    * a row block times a weight matrix, [256,1024] · [1024,1024]:   (l · w)[p, j]    = ∑ k, l[p, k] · w[k, j];
    * query heads against key heads, batched over the 256 rows:      s[p, h, H]       = ∑ d, a[p, h, d] · b[p, H, d];
    * softmax weights times value heads, batched over the rows:      o[p, h, d]       = ∑ H, a[p, h, H] · b[p, H, d].

  For each: where the contraction's operand indices sit, axis by axis, then the sum re-indexed by the contracted
  axis's coordinate.
-/
import proofs.«124702_j58720792871836_1_alg».proof.Proof.Gen.KernelIdeal
import Idealize.ShloMosaic.Lib.ValueIdx
import Idealize.ShloMosaic.PureOps.Ideal.Laws

noncomputable section

namespace Cert.KernelIdeal.Contract

open Cert.KernelIdeal Idealize.ShloMosaic Idealize.ShloMosaic.ValueIdx

/-! ## Rows times a weight matrix -/

theorem dense_lhs_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem dense_lhs_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem dense_rhs_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem dense_rhs_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Entry (p, j) of a [256,1024] block times a [1024,1024] matrix, accumulated into zeros. -/
theorem dense_apply (l : FVec Ideal S256x1024 .bf16) (w : FVec Ideal S1024x1024 .bf16) (p : Fin 256) (j : Fin 1024) :
    matmul dot_S256x1024_S1024x1024_S256x1024_1_0_0_1_n_n none l w (constant S256x1024 .f32 0x00000000#32) (ix2 p j)
      = ∑ k : Fin 1024, l (ix2 p k) * w (ix2 k j) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p j) ((ValueIdx.contrEquiv1 dot_S256x1024_S1024x1024_S256x1024_1_0_0_1_n_n 1024 rfl rfl).symm k) = ix2 p k := funext fun a => Fin.ext (by
    match a with
    | ⟨0, _⟩ => exact dense_lhs_0 _ _
    | ⟨1, _⟩ => exact (dense_lhs_1 _ _).trans hk)
  have er : dot_S256x1024_S1024x1024_S256x1024_1_0_0_1_n_n.rhsIdx (ix2 p j) ((ValueIdx.contrEquiv1 dot_S256x1024_S1024x1024_S256x1024_1_0_0_1_n_n 1024 rfl rfl).symm k) = ix2 k j := funext fun a => Fin.ext (by
    match a with
    | ⟨0, _⟩ => exact (dense_rhs_0 _ _).trans hk
    | ⟨1, _⟩ => exact dense_rhs_1 _ _)
  rw [el, er]

/-! ## Query heads against key heads -/

theorem qk_lhs_0 (i : S256x16x16.Idx) (q : dot_S256x16x64_S256x16x64_S256x16x16_2_2_1_1_0_0.contr.Idx) :
    (dot_S256x16x64_S256x16x64_S256x16x16_2_2_1_1_0_0.lhsIdx i q 0).val = (i 0).val := by
  unfold DotDims.lhsIdx
  rw [dif_pos (show (0 : Fin S256x16x64.rank) ∈ dot_S256x16x64_S256x16x64_S256x16x16_2_2_1_1_0_0.lhsBatch by decide)]
  rfl
theorem qk_lhs_1 (i : S256x16x16.Idx) (q : dot_S256x16x64_S256x16x64_S256x16x16_2_2_1_1_0_0.contr.Idx) :
    (dot_S256x16x64_S256x16x64_S256x16x16_2_2_1_1_0_0.lhsIdx i q 1).val = (i 1).val := by
  unfold DotDims.lhsIdx
  rw [dif_neg (show ¬(1 : Fin S256x16x64.rank) ∈ dot_S256x16x64_S256x16x64_S256x16x16_2_2_1_1_0_0.lhsBatch by decide), dif_pos (show (1 : Fin S256x16x64.rank) ∈ dot_S256x16x64_S256x16x64_S256x16x16_2_2_1_1_0_0.lhsNonContracting by decide)]
  rfl
theorem qk_lhs_2 (i : S256x16x16.Idx) (q : dot_S256x16x64_S256x16x64_S256x16x16_2_2_1_1_0_0.contr.Idx) :
    (dot_S256x16x64_S256x16x64_S256x16x16_2_2_1_1_0_0.lhsIdx i q 2).val = (q ⟨0, by decide⟩).val :=
  dot_S256x16x64_S256x16x64_S256x16x16_2_2_1_1_0_0.lhsIdx_val_of_single rfl i q
theorem qk_rhs_0 (i : S256x16x16.Idx) (q : dot_S256x16x64_S256x16x64_S256x16x16_2_2_1_1_0_0.contr.Idx) :
    (dot_S256x16x64_S256x16x64_S256x16x16_2_2_1_1_0_0.rhsIdx i q 0).val = (i 0).val := by
  unfold DotDims.rhsIdx
  rw [dif_pos (show (0 : Fin S256x16x64.rank) ∈ dot_S256x16x64_S256x16x64_S256x16x16_2_2_1_1_0_0.rhsBatch by decide)]
  rfl
theorem qk_rhs_1 (i : S256x16x16.Idx) (q : dot_S256x16x64_S256x16x64_S256x16x16_2_2_1_1_0_0.contr.Idx) :
    (dot_S256x16x64_S256x16x64_S256x16x16_2_2_1_1_0_0.rhsIdx i q 1).val = (i 2).val := by
  unfold DotDims.rhsIdx
  rw [dif_neg (show ¬(1 : Fin S256x16x64.rank) ∈ dot_S256x16x64_S256x16x64_S256x16x16_2_2_1_1_0_0.rhsBatch by decide), dif_pos (show (1 : Fin S256x16x64.rank) ∈ dot_S256x16x64_S256x16x64_S256x16x16_2_2_1_1_0_0.rhsNonContracting by decide)]
  rfl
theorem qk_rhs_2 (i : S256x16x16.Idx) (q : dot_S256x16x64_S256x16x64_S256x16x16_2_2_1_1_0_0.contr.Idx) :
    (dot_S256x16x64_S256x16x64_S256x16x16_2_2_1_1_0_0.rhsIdx i q 2).val = (q ⟨0, by decide⟩).val :=
  dot_S256x16x64_S256x16x64_S256x16x16_2_2_1_1_0_0.rhsIdx_val_of_single rfl i q

/-- Entry (p, h, H): the product of query head h and key head H of row p, over the 64 lanes. -/
theorem qk_apply (a b : FVec Ideal S256x16x64 .f32) (p : Fin 256) (h H : Fin 16) :
    matmul dot_S256x16x64_S256x16x64_S256x16x16_2_2_1_1_0_0 none a b (constant S256x16x16 .f32 0x00000000#32) (ix3 p h H)
      = ∑ d : Fin 64, a (ix3 p h d) * b (ix3 p H d) := by
  simp only [matmul]
  rw [Ideal.matmul_constant_zero_apply, ← Equiv.sum_comp (ValueIdx.contrEquiv1 dot_S256x16x64_S256x16x64_S256x16x16_2_2_1_1_0_0 64 rfl rfl).symm]
  refine Finset.sum_congr rfl fun k _ => ?_
  have hk := ValueIdx.contrEquiv1_symm_val dot_S256x16x64_S256x16x64_S256x16x16_2_2_1_1_0_0 64 rfl rfl k
  have el : dot_S256x16x64_S256x16x64_S256x16x16_2_2_1_1_0_0.lhsIdx (ix3 p h H) ((ValueIdx.contrEquiv1 dot_S256x16x64_S256x16x64_S256x16x16_2_2_1_1_0_0 64 rfl rfl).symm k) = ix3 p h k := funext fun a => Fin.ext (by
    match a with
    | ⟨0, _⟩ => exact qk_lhs_0 _ _
    | ⟨1, _⟩ => exact qk_lhs_1 _ _
    | ⟨2, _⟩ => exact (qk_lhs_2 _ _).trans hk)
  have er : dot_S256x16x64_S256x16x64_S256x16x16_2_2_1_1_0_0.rhsIdx (ix3 p h H) ((ValueIdx.contrEquiv1 dot_S256x16x64_S256x16x64_S256x16x16_2_2_1_1_0_0 64 rfl rfl).symm k) = ix3 p H k := funext fun a => Fin.ext (by
    match a with
    | ⟨0, _⟩ => exact qk_rhs_0 _ _
    | ⟨1, _⟩ => exact qk_rhs_1 _ _
    | ⟨2, _⟩ => exact (qk_rhs_2 _ _).trans hk)
  rw [el, er]

/-! ## Softmax weights times value heads -/

theorem pv_lhs_0 (i : S256x16x64.Idx) (q : dot_S256x16x16_S256x16x64_S256x16x64_2_1_1_2_0_0.contr.Idx) :
    (dot_S256x16x16_S256x16x64_S256x16x64_2_1_1_2_0_0.lhsIdx i q 0).val = (i 0).val := by
  unfold DotDims.lhsIdx
  rw [dif_pos (show (0 : Fin S256x16x16.rank) ∈ dot_S256x16x16_S256x16x64_S256x16x64_2_1_1_2_0_0.lhsBatch by decide)]
  rfl
theorem pv_lhs_1 (i : S256x16x64.Idx) (q : dot_S256x16x16_S256x16x64_S256x16x64_2_1_1_2_0_0.contr.Idx) :
    (dot_S256x16x16_S256x16x64_S256x16x64_2_1_1_2_0_0.lhsIdx i q 1).val = (i 1).val := by
  unfold DotDims.lhsIdx
  rw [dif_neg (show ¬(1 : Fin S256x16x16.rank) ∈ dot_S256x16x16_S256x16x64_S256x16x64_2_1_1_2_0_0.lhsBatch by decide), dif_pos (show (1 : Fin S256x16x16.rank) ∈ dot_S256x16x16_S256x16x64_S256x16x64_2_1_1_2_0_0.lhsNonContracting by decide)]
  rfl
theorem pv_lhs_2 (i : S256x16x64.Idx) (q : dot_S256x16x16_S256x16x64_S256x16x64_2_1_1_2_0_0.contr.Idx) :
    (dot_S256x16x16_S256x16x64_S256x16x64_2_1_1_2_0_0.lhsIdx i q 2).val = (q ⟨0, by decide⟩).val :=
  dot_S256x16x16_S256x16x64_S256x16x64_2_1_1_2_0_0.lhsIdx_val_of_single rfl i q
theorem pv_rhs_0 (i : S256x16x64.Idx) (q : dot_S256x16x16_S256x16x64_S256x16x64_2_1_1_2_0_0.contr.Idx) :
    (dot_S256x16x16_S256x16x64_S256x16x64_2_1_1_2_0_0.rhsIdx i q 0).val = (i 0).val := by
  unfold DotDims.rhsIdx
  rw [dif_pos (show (0 : Fin S256x16x64.rank) ∈ dot_S256x16x16_S256x16x64_S256x16x64_2_1_1_2_0_0.rhsBatch by decide)]
  rfl
theorem pv_rhs_1 (i : S256x16x64.Idx) (q : dot_S256x16x16_S256x16x64_S256x16x64_2_1_1_2_0_0.contr.Idx) :
    (dot_S256x16x16_S256x16x64_S256x16x64_2_1_1_2_0_0.rhsIdx i q 1).val = (q ⟨0, by decide⟩).val :=
  dot_S256x16x16_S256x16x64_S256x16x64_2_1_1_2_0_0.rhsIdx_val_of_single rfl i q
theorem pv_rhs_2 (i : S256x16x64.Idx) (q : dot_S256x16x16_S256x16x64_S256x16x64_2_1_1_2_0_0.contr.Idx) :
    (dot_S256x16x16_S256x16x64_S256x16x64_2_1_1_2_0_0.rhsIdx i q 2).val = (i 2).val := by
  unfold DotDims.rhsIdx
  rw [dif_neg (show ¬(2 : Fin S256x16x64.rank) ∈ dot_S256x16x16_S256x16x64_S256x16x64_2_1_1_2_0_0.rhsBatch by decide), dif_pos (show (2 : Fin S256x16x64.rank) ∈ dot_S256x16x16_S256x16x64_S256x16x64_2_1_1_2_0_0.rhsNonContracting by decide)]
  rfl

/-- Entry (p, h, d): the value heads of row p mixed by query head h's sixteen weights. -/
theorem pv_apply (a : FVec Ideal S256x16x16 .f32) (b : FVec Ideal S256x16x64 .f32) (p : Fin 256) (h : Fin 16) (d : Fin 64) :
    matmul dot_S256x16x16_S256x16x64_S256x16x64_2_1_1_2_0_0 none a b (constant S256x16x64 .f32 0x00000000#32) (ix3 p h d)
      = ∑ H : Fin 16, a (ix3 p h H) * b (ix3 p H d) := by
  simp only [matmul]
  rw [Ideal.matmul_constant_zero_apply, ← Equiv.sum_comp (ValueIdx.contrEquiv1 dot_S256x16x16_S256x16x64_S256x16x64_2_1_1_2_0_0 16 rfl rfl).symm]
  refine Finset.sum_congr rfl fun k _ => ?_
  have hk := ValueIdx.contrEquiv1_symm_val dot_S256x16x16_S256x16x64_S256x16x64_2_1_1_2_0_0 16 rfl rfl k
  have el : dot_S256x16x16_S256x16x64_S256x16x64_2_1_1_2_0_0.lhsIdx (ix3 p h d) ((ValueIdx.contrEquiv1 dot_S256x16x16_S256x16x64_S256x16x64_2_1_1_2_0_0 16 rfl rfl).symm k) = ix3 p h k := funext fun a => Fin.ext (by
    match a with
    | ⟨0, _⟩ => exact pv_lhs_0 _ _
    | ⟨1, _⟩ => exact pv_lhs_1 _ _
    | ⟨2, _⟩ => exact (pv_lhs_2 _ _).trans hk)
  have er : dot_S256x16x16_S256x16x64_S256x16x64_2_1_1_2_0_0.rhsIdx (ix3 p h d) ((ValueIdx.contrEquiv1 dot_S256x16x16_S256x16x64_S256x16x64_2_1_1_2_0_0 16 rfl rfl).symm k) = ix3 p k d := funext fun a => Fin.ext (by
    match a with
    | ⟨0, _⟩ => exact pv_rhs_0 _ _
    | ⟨1, _⟩ => exact (pv_rhs_1 _ _).trans hk
    | ⟨2, _⟩ => exact pv_rhs_2 _ _)
  rw [el, er]

end Cert.KernelIdeal.Contract

end
-- ==== Proof.Spec.lean ====
/-
  What both programs compute, for one token (one row of the activations): multi-head attention ACROSS THE HEADS of
  that token. With the row `x` (1024 entries) and the four linear layers `y ↦ y · Wᵀ + b`:

    q = x·Wqᵀ + bq,  k = x·Wkᵀ + bk,  v = x·Wvᵀ + bv            (1024 entries each, read as 16 heads × 64 lanes)
    s[h, H]  = (∑ d, q[h, d] · k[H, d]) · 2⁻³                      (16 × 16 scores)
    p[h, H]  = exp (s[h, H] − max_H s[h, ·]) / ∑ H', exp (s[h, H'] − max_H s[h, ·])   (softmax over the key heads)
    o[h, d]  = ∑ H, p[h, H] · v[H, d]                              (16 × 64, read back as 1024 entries)
    out      = o·Woᵀ + bo.

  Everything is on the extended reals, with the operations of the ideal float instance (sums of products for the
  contractions, `max` for the maximum, `Ideal.exp`, `Ideal.div`). The two float words the programs share — the scale
  `0x3E000000` (one eighth) and `0xFF800000` (−∞), from which each maximum starts — are kept as words: both programs
  carry the same ones, so they are never evaluated. The whole array is the row function applied to each row.
-/
import Idealize.ShloMosaic.PureOps.Ideal
import Idealize.ShloMosaic.Lib.ValueIdx

noncomputable section

namespace Cert.AttnSpec

open Idealize.ShloMosaic Idealize.ShloMosaic.ValueIdx

/-- The scale `64^(-1/2) = 1/8` of the scores, as the f32 word both programs hold. -/
abbrev scale : EReal := Ideal.ofBits .f32 0x3E000000#32
/-- The value each row maximum starts from: the f32 word of `−∞`. -/
abbrev negInf : EReal := Ideal.ofBits .f32 0xFF800000#32

/-- Entry `d` of head `h` in a row of 1024 = 16 × 64 entries. -/
def hd (h : Fin 16) (d : Fin 64) : Fin 1024 := ⟨h.val * 64 + d.val, by have := h.isLt; have := d.isLt; omega⟩
/-- The head an entry of the row belongs to, -/
def headOf (j : Fin 1024) : Fin 16 := ⟨j.val / 64, by have := j.isLt; omega⟩
/-- and its place inside that head. -/
def laneOf (j : Fin 1024) : Fin 64 := ⟨j.val % 64, Nat.mod_lt _ (by decide)⟩

theorem hd_headOf_laneOf (j : Fin 1024) : hd (headOf j) (laneOf j) = j :=
  Fin.ext (by show j.val / 64 * 64 + j.val % 64 = j.val; omega)
theorem headOf_hd (h : Fin 16) (d : Fin 64) : headOf (hd h d) = h :=
  Fin.ext (by have := h.isLt; have := d.isLt; show (h.val * 64 + d.val) / 64 = h.val; omega)
theorem laneOf_hd (h : Fin 16) (d : Fin 64) : laneOf (hd h d) = d :=
  Fin.ext (by have := h.isLt; have := d.isLt; show (h.val * 64 + d.val) % 64 = d.val; omega)

/-- A linear layer on one row: `(x · Wᵀ + b)[j] = ∑ k, x[k] · W[j, k] + b[j]`. -/
def proj (x : Fin 1024 → EReal) (W : Fin 1024 → Fin 1024 → EReal) (b : Fin 1024 → EReal) (j : Fin 1024) : EReal :=
  (∑ k : Fin 1024, x k * W j k) + b j

/-- The scaled score of query head `h` against key head `H`. -/
def score (q k : Fin 1024 → EReal) (h H : Fin 16) : EReal := (∑ d : Fin 64, q (hd h d) * k (hd H d)) * scale

/-- The maximum of sixteen scores, as both programs take it: the fold of `max` from `−∞`, then `max` with `−∞` once more. -/
def rowMax (s : Fin 16 → EReal) : EReal := max negInf ((Finset.univ : Finset (Fin 16)).fold max negInf s)

/-- The exponential of a score less its row's maximum. -/
def expo (q k : Fin 1024 → EReal) (h H : Fin 16) : EReal := Ideal.exp (score q k h H - rowMax (score q k h))

/-- The sum of a row's exponentials. -/
def denom (q k : Fin 1024 → EReal) (h : Fin 16) : EReal := ∑ H : Fin 16, expo q k h H

/-- The softmax weight of key head `H` for query head `h`. -/
def prob (q k : Fin 1024 → EReal) (h H : Fin 16) : EReal := Ideal.div (expo q k h H) (denom q k h)

/-- The heads' values mixed by the weights, laid out again as one row of 1024 entries. -/
def mix (q k v : Fin 1024 → EReal) (j : Fin 1024) : EReal := ∑ H : Fin 16, prob q k (headOf j) H * v (hd H (laneOf j))

/-- One token's output row. -/
def attnRow (x : Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (Wo : Fin 1024 → Fin 1024 → EReal) (bo : Fin 1024 → EReal) : Fin 1024 → EReal :=
  proj (mix (proj x Wq bq) (proj x Wk bk) (proj x Wv bv)) Wo bo

/-- The shapes of the arrays, as literals. -/
abbrev SX : Shape := ⟨2, ![32768, 1024]⟩
abbrev SW : Shape := ⟨2, ![1024, 1024]⟩
abbrev SB : Shape := ⟨1, ![1024]⟩

/-- The result at row `r`, column `j`, from the argument arrays: the row function on row `r` of `x`. -/
def outAt (x : SX.Idx → EReal) (Wq : SW.Idx → EReal) (bq : SB.Idx → EReal) (Wk : SW.Idx → EReal) (bk : SB.Idx → EReal)
    (Wv : SW.Idx → EReal) (bv : SB.Idx → EReal) (Wo : SW.Idx → EReal) (bo : SB.Idx → EReal) (r : Fin 32768) (j : Fin 1024) : EReal :=
  attnRow (fun k => x (ix2 r k)) (fun a b => Wq (ix2 a b)) (fun a => bq (ix1 a)) (fun a b => Wk (ix2 a b)) (fun a => bk (ix1 a))
    (fun a b => Wv (ix2 a b)) (fun a => bv (ix1 a)) (fun a b => Wo (ix2 a b)) (fun a => bo (ix1 a)) j

/-- The whole result array. -/
def out (x : SX.Idx → EReal) (Wq : SW.Idx → EReal) (bq : SB.Idx → EReal) (Wk : SW.Idx → EReal) (bk : SB.Idx → EReal)
    (Wv : SW.Idx → EReal) (bv : SB.Idx → EReal) (Wo : SW.Idx → EReal) (bo : SB.Idx → EReal) : SX.Idx → EReal :=
  fun i => outAt x Wq bq Wk bk Wv bv Wo bo ⟨(i 0).val, (i 0).isLt⟩ ⟨(i 1).val, (i 1).isLt⟩

theorem out_ix2 (x : SX.Idx → EReal) (Wq : SW.Idx → EReal) (bq : SB.Idx → EReal) (Wk : SW.Idx → EReal) (bk : SB.Idx → EReal)
    (Wv : SW.Idx → EReal) (bv : SB.Idx → EReal) (Wo : SW.Idx → EReal) (bo : SB.Idx → EReal) (r : Fin 32768) (j : Fin 1024) :
    out x Wq bq Wk bk Wv bv Wo bo (ix2 r j) = outAt x Wq bq Wk bk Wv bv Wo bo r j := rfl

end Cert.AttnSpec

end
-- ==== Proof.KernelLayout.lean ====
/-
  The layout operations and the two lane reductions of the kernel body, each read at one entry, with every index
  given by its coordinates:

    * a [1,1024] bias row laid over the 256 rows of a block reads its one row;
    * a [256,1024] block seen as [256,16,64] (heads × lanes): entry (p, h, d) is entry (p, 64·h + d), and back;
    * a [256,16] array of per-head numbers made a column [256,16,1] and laid over the sixteen key heads reads (p, h);
    * the maximum and the sum over the sixteen key heads of a [256,16,16] array, at (p, h): the fold of `max` from
      the starting word, and the plain sum, over H of the entry (p, h, H).
-/
import proofs.«124702_j58720792871836_1_alg».proof.Proof.Gen.KernelIdeal
import proofs.«124702_j58720792871836_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layout

open Cert.KernelIdeal Cert.AttnSpec Idealize.ShloMosaic Idealize.ShloMosaic.ValueIdx

variable {α : Type}

/-- A bias row, re-cast to its own shape and laid over the 256 rows: entry (p, j) is the row's entry j. -/
theorem bias_apply (b : S1x1024.Idx → α) (hc : S1x1024.ShapeCasts S1x1024) (hb : S1x1024.Broadcasts S256x1024)
    (p : Fin 256) (j : Fin 1024) :
    broadcastTo S256x1024 (shapeCast S1x1024 b hc) hb (ix2 p j) = b (ix2 (0 : Fin 1) j) := by
  rw [shapeCast_self]
  exact broadcastTo_1b_ab_apply b hb p j

/-- A block of 1024-entry rows seen as 16 heads of 64 lanes: entry (p, h, d) is entry (p, 64·h + d). -/
theorem heads_apply (y : S256x1024.Idx → α) (hc : S256x1024.ShapeCasts S256x16x64) (p : Fin 256) (h : Fin 16) (d : Fin 64) :
    shapeCast S256x16x64 y hc (ix3 p h d) = y (ix2 p (hd h d)) := by
  refine shapeCast_apply y hc (ix3 p h d) (ix2 p (hd h d)) ?_
  rw [Shape.rowMajor_val_two, Shape.rowMajor_val_three]
  show p.val * 1024 + (h.val * 64 + d.val) = (p.val * 16 + h.val) * 64 + d.val
  omega

/-- and back: entry (p, j) of the rows is entry (p, j / 64, j % 64) of the heads. -/
theorem merge_apply (y : S256x16x64.Idx → α) (hc : S256x16x64.ShapeCasts S256x1024) (p : Fin 256) (j : Fin 1024) :
    shapeCast S256x1024 y hc (ix2 p j) = y (ix3 p (headOf j) (laneOf j)) := by
  refine shapeCast_apply y hc (ix2 p j) (ix3 p (headOf j) (laneOf j)) ?_
  rw [Shape.rowMajor_val_two, Shape.rowMajor_val_three]
  show (p.val * 16 + j.val / 64) * 64 + j.val % 64 = p.val * 1024 + j.val
  omega

/-- One number per (row, head), made a column and laid over the sixteen key heads: entry (p, h, H) is the number at (p, h). -/
theorem column_apply (y : S256x16.Idx → α) (hc : S256x16.ShapeCasts S256x16x1) (hb : S256x16x1.Broadcasts S256x16x16)
    (p : Fin 256) (h H : Fin 16) :
    broadcastTo S256x16x16 (shapeCast S256x16x1 y hc) hb (ix3 p h H) = y (ix2 p h) := by
  refine (broadcastTo_apply (shapeCast S256x16x1 y hc) hb (ix3 p h H) (ix3 p h (0 : Fin 1)) fun ax => ?_).trans ?_
  · match ax with
    | ⟨0, _⟩ => rfl
    | ⟨1, _⟩ => rfl
    | ⟨2, _⟩ => rfl
  · refine shapeCast_apply y hc (ix3 p h (0 : Fin 1)) (ix2 p h) ?_
    rw [Shape.rowMajor_val_two, Shape.rowMajor_val_three]
    show p.val * 16 + h.val = (p.val * 16 + h.val) * 1 + 0
    omega

/-- The source index over (p, h) with key head H on the reduced axis is (p, h, H). -/
theorem lift_eq (hr : S256x16x16.Reduces [2] S256x16) (p : Fin 256) (h H : Fin 16) :
    hr.lift (ix2 p h) H = ix3 p h H :=
  funext fun a => Fin.ext (by
    match a with
    | ⟨0, _⟩ => rfl
    | ⟨1, _⟩ => rfl
    | ⟨2, _⟩ => rfl)

/-- The maximum over the key heads at (p, h): the fold of `max` from the starting word over the sixteen entries. -/
theorem keyMax_apply (s : FVec Ideal S256x16x16 .f32) (hr : S256x16x16.Reduces [2] S256x16) (hφ : FKind.Formats .f32)
    (hacc : (0xFF800000#32 : BitVec (FTy.bits .f32)) = FKind.maximumf.neutral .f32 hφ) (p : Fin 256) (h : Fin 16) :
    multiReduction .maximumf [2] S256x16 s 0xFF800000#32 hr hφ hacc (ix2 p h)
      = (Finset.univ : Finset (Fin 16)).fold max negInf (fun H => s (ix3 p h H)) := by
  refine (Ideal.multiReduction_maximumf_single s 0xFF800000#32 hr hφ hacc (ix2 p h)).trans ?_
  refine congrArg (fun f => (Finset.univ : Finset (Fin 16)).fold max negInf f) (funext fun H => ?_)
  exact congrArg s (lift_eq hr p h H)

/-- The sum over the key heads at (p, h). -/
theorem keySum_apply (s : FVec Ideal S256x16x16 .f32) (hr : S256x16x16.Reduces [2] S256x16) (hφ : FKind.Formats .f32)
    (hacc : (0x00000000#32 : BitVec (FTy.bits .f32)) = FKind.add.neutral .f32 hφ) (p : Fin 256) (h : Fin 16) :
    multiReduction .add [2] S256x16 s 0x00000000#32 hr hφ hacc (ix2 p h) = ∑ H : Fin 16, s (ix3 p h H) := by
  refine (Ideal.multiReduction_add_single s 0x00000000#32 hr hφ hacc (ix2 p h)).trans ?_
  exact Finset.sum_congr rfl fun H _ => congrArg s (lift_eq hr p h H)

end Cert.KernelIdeal.Layout

end
-- ==== Proof.KernelPay.lean ====
/-
  The kernel body's arithmetic, read at one entry (p, j) of the block it stores, is the token function of the
  specification applied to row p of the input block.

  The body computes, from a [256,1024] block `x`, four [1024,1024] matrices (already transposed: `w[k, a]` is the
  layer's weight W[a, k]) and four [1,1024] bias rows:
  three linear layers (a contraction with a weight matrix plus the bias row laid over the rows), their results seen as
  16 heads × 64 lanes; the scaled scores of every query head against every key head of the same row; the row
  maximum, the exponentials and their sum; the quotient; the weights applied to the value heads; the result seen as
  rows of 1024 again and put through the fourth linear layer. Each step is read at an entry by the lemma for its
  operation, and each intermediate array enters the next step only through what it is at the entries of row p.
  The changes of float format in the body are the identity on the extended reals.
-/
import proofs.«124702_j58720792871836_1_alg».proof.Proof.Gen.KernelIdeal.Skeleton
import proofs.«124702_j58720792871836_1_alg».proof.Proof.KernelContract
import proofs.«124702_j58720792871836_1_alg».proof.Proof.KernelLayout

noncomputable section

namespace Cert.KernelIdeal.Pay

open Cert.KernelIdeal Cert.KernelIdeal.Gen Cert.AttnSpec Idealize.ShloMosaic Idealize.ShloMosaic.ValueIdx

/-- A linear layer of the body at (p, j): the contraction of row p of `l` with column j of the transposed weights,
    plus the bias row's entry j. -/
theorem linear_apply (l : FVec Ideal S256x1024 .bf16) (w : FVec Ideal S1024x1024 .bf16) (b : FVec Ideal S1x1024 .f32)
    (hcw : S1024x1024.ShapeCasts S1024x1024) (hcb : S1x1024.ShapeCasts S1x1024) (hbb : S1x1024.Broadcasts S256x1024)
    (p : Fin 256) (j : Fin 1024) :
    addf (matmul dot_S256x1024_S1024x1024_S256x1024_1_0_0_1_n_n none l (shapeCast S1024x1024 w hcw) (constant S256x1024 .f32 0x00000000#32))
        (broadcastTo S256x1024 (shapeCast S1x1024 b hcb) hbb) (ix2 p j)
      = proj (fun k => l (ix2 p k)) (fun a k => w (ix2 k a)) (fun a => b (ix2 (0 : Fin 1) a)) j := by
  rw [addf_apply, Contract.dense_apply, Layout.bias_apply, shapeCast_self]
  rfl

/-- The scaled scores at (p, h, H), from two [256,1024] arrays known on row p. -/
theorem scores_apply (yq yk : FVec Ideal S256x1024 .f32) (hc : S256x1024.ShapeCasts S256x16x64) (p : Fin 256)
    (q k : Fin 1024 → EReal) (hq : ∀ j, yq (ix2 p j) = q j) (hk : ∀ j, yk (ix2 p j) = k j) (h H : Fin 16) :
    mulf (matmul dot_S256x16x64_S256x16x64_S256x16x16_2_2_1_1_0_0 none (shapeCast S256x16x64 yq hc) (shapeCast S256x16x64 yk hc) (constant S256x16x16 .f32 0x00000000#32))
        (broadcast S256x16x16 (Scalar.ofBits .f32 0x3E000000#32)) (ix3 p h H)
      = score q k h H := by
  rw [mulf_apply, Contract.qk_apply]
  simp only [Layout.heads_apply, hq, hk]
  rfl

/-- The exponential of a score less its row's maximum at (p, h, H), from a score array known on the row (p, h). -/
theorem expSub_apply (s : FVec Ideal S256x16x16 .f32) (hr : S256x16x16.Reduces [2] S256x16) (hφ : FKind.Formats .f32)
    (hacc : (0xFF800000#32 : BitVec (FTy.bits .f32)) = FKind.maximumf.neutral .f32 hφ)
    (hc : S256x16.ShapeCasts S256x16x1) (hb : S256x16x1.Broadcasts S256x16x16) (p : Fin 256) (h : Fin 16)
    (σ : Fin 16 → EReal) (hs : ∀ H, s (ix3 p h H) = σ H) (H : Fin 16) :
    exp (subf s (broadcastTo S256x16x16 (shapeCast S256x16x1
        (maximumf (broadcast S256x16 (Scalar.ofBits .f32 0xFF800000#32))
          (multiReduction .maximumf [2] S256x16 s 0xFF800000#32 hr hφ hacc)) hc) hb)) (ix3 p h H)
      = Ideal.exp (σ H - rowMax σ) := by
  show Ideal.exp (s (ix3 p h H) - broadcastTo S256x16x16 _ hb (ix3 p h H)) = _
  rw [Layout.column_apply, maximumf_apply, Layout.keyMax_apply, hs H, funext hs]
  rfl

variable (x0 : FVec Ideal S256x1024 .f32) (w1 : FVec Ideal S1024x1024 .bf16) (b2 : FVec Ideal S1x1024 .f32)
  (w3 : FVec Ideal S1024x1024 .bf16) (b4 : FVec Ideal S1x1024 .f32) (w5 : FVec Ideal S1024x1024 .bf16) (b6 : FVec Ideal S1x1024 .f32)
  (w7 : FVec Ideal S1024x1024 .bf16) (b8 : FVec Ideal S1x1024 .f32) (p : Fin 256)

/-- Row p of the block, -/
abbrev xrow : Fin 1024 → EReal := fun k => x0 (ix2 p k)
/-- a weight matrix read as the layer's W[a, k] (the block holds its transpose), -/
abbrev wmat (w : FVec Ideal S1024x1024 .bf16) : Fin 1024 → Fin 1024 → EReal := fun a k => w (ix2 k a)
/-- a bias row. -/
abbrev brow (b : FVec Ideal S1x1024 .f32) : Fin 1024 → EReal := fun a => b (ix2 (0 : Fin 1) a)

/-- The value heads at (p, H, d). -/
theorem values_apply (H : Fin 16) (d : Fin 64) :
    k0_pay3 (F := Ideal) x0 w5 b6 (ix3 p H d) = proj (xrow x0 p) (wmat w5) (brow b6) (hd H d) := by
  unfold k0_pay3 k0_pay2
  dsimp only
  refine (Layout.heads_apply _ _ p H d).trans ?_
  exact linear_apply _ _ _ _ _ _ p (hd H d)

/-- The exponentials at (p, h, H). -/
theorem exps_apply (h H : Fin 16) :
    k0_pay4 (F := Ideal) x0 w1 b2 w3 b4 (ix3 p h H)
      = expo (proj (xrow x0 p) (wmat w1) (brow b2)) (proj (xrow x0 p) (wmat w3) (brow b4)) h H := by
  unfold k0_pay4 k0_pay2
  dsimp only
  refine expSub_apply _ _ _ _ _ _ p h _ (fun H' => ?_) H
  exact scores_apply _ _ _ p _ _ (fun j => linear_apply _ _ _ _ _ _ p j) (fun j => linear_apply _ _ _ _ _ _ p j) h H'

/-- Their sums at (p, h). -/
theorem sums_apply (h : Fin 16) :
    k0_pay5 (F := Ideal) x0 w1 b2 w3 b4 (ix2 p h)
      = denom (proj (xrow x0 p) (wmat w1) (brow b2)) (proj (xrow x0 p) (wmat w3) (brow b4)) h := by
  unfold k0_pay5
  refine (Layout.keySum_apply _ _ _ _ p h).trans ?_
  exact Finset.sum_congr rfl fun H _ => exps_apply x0 w1 b2 w3 b4 p h H

/-- The stored value at (p, j), from arrays known on row p: the value heads, the exponentials and their sums. -/
theorem store_apply (v25 : FVec Ideal S256x16x64 .f32) (v35 : FVec Ideal S256x16x16 .f32) (v36 : FVec Ideal S256x16 .f32)
    (q k v : Fin 1024 → EReal) (h25 : ∀ H d, v25 (ix3 p H d) = v (hd H d)) (h35 : ∀ h H, v35 (ix3 p h H) = expo q k h H)
    (h36 : ∀ h, v36 (ix2 p h) = denom q k h) (j : Fin 1024) :
    k0_pay1 (F := Ideal) v25 v35 v36 w7 b8 (ix2 p j) = proj (mix q k v) (wmat w7) (brow b8) j := by
  unfold k0_pay1
  refine (linear_apply _ _ _ _ _ _ p j).trans ?_
  refine congrArg (fun f => proj f (wmat w7) (brow b8) j) (funext fun a => ?_)
  refine (truncf_apply (φ := FTy.f32) (ψ := FTy.bf16) _ _ (ix2 p a)).trans ?_
  rw [Layout.merge_apply, Contract.pv_apply]
  unfold mix
  refine Finset.sum_congr rfl fun H _ => ?_
  rw [divf_apply, Layout.column_apply, h35, h36, h25]
  rfl

/-- THE BODY at (p, j): the token function on row p of the block. -/
theorem body_apply (j : Fin 1024) :
    k0_pay1 (F := Ideal) (k0_pay3 x0 w5 b6) (k0_pay4 x0 w1 b2 w3 b4) (k0_pay5 x0 w1 b2 w3 b4) w7 b8 (ix2 p j)
      = attnRow (xrow x0 p) (wmat w1) (brow b2) (wmat w3) (brow b4) (wmat w5) (brow b6) (wmat w7) (brow b8) j :=
  store_apply w7 b8 p _ _ _ _ _ _ (values_apply x0 w5 b6 p) (exps_apply x0 w1 b2 w3 b4 p) (sums_apply x0 w1 b2 w3 b4 p) j

end Cert.KernelIdeal.Pay

end
-- ==== Proof.KernelCover.lean ====
/-
  Where the kernel's output blocks lie. The grid has 128 points; point t writes back block t of the result array:
  rows 256 t to 256 t + 255, all 1024 columns. So an index is in point t's block exactly when each coordinate is in
  the block's range on its axis, and every index (r, j) of the array lies in the block of point r / 256.
-/
import proofs.«124702_j58720792871836_1_alg».proof.Proof.Gen.KernelIdeal.Points
import proofs.«124702_j58720792871836_1_alg».proof.Proof.Gen.KernelIdeal.Launch
import Idealize.ShloMosaic.Lib.Pipeline.Value

noncomputable section

namespace Cert.KernelIdeal.Cover

open Cert.KernelIdeal Cert.KernelIdeal.Gen Idealize.ShloMosaic Idealize.ShloMosaic.TcCoe

/-- The output's block index at point t is (t, 0), decided over the grid. -/
theorem idx9 : ∀ t : Fin cfg0.N, win0_9.index t (0 : Fin 2) = t.val ∧ win0_9.index t (1 : Fin 2) = 0 :=
  (by decide +kernel : ∀ t : Fin grid0.N, _)

/-- An index of the array is in point t's block iff each coordinate is in the block's range on its axis. -/
theorem mem_blk9 (t : Fin cfg0.N) (i : S32768x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v12).slice (win0_9.rect t)).set ↔ _
  rw [View.set_slice_whole, Rect.mem_set_unit]
  exact Iff.rfl

/-- Every index of the array is in the block of the point its row falls in, and that point writes its block back. -/
theorem cover9 (i : S32768x1024.Idx) : ∃ t : Fin cfg0.N, (cfg0.win 9).flush t = true ∧ i ∈ ((cfg0.win 9).blk t).view.set := by
  have hN : cfg0.N = 128 := N_0
  have hi0 : (i 0).val < 32768 := (i 0).isLt
  have hi1 : (i 1).val < 1024 := (i 1).isLt
  let t : Fin cfg0.N := ⟨(i 0).val / 256, by omega⟩
  obtain ⟨e0, e1⟩ := idx9 t
  have ht : t.val = (i 0).val / 256 := rfl
  refine ⟨t, flush0_9 t, ?_⟩
  rw [mem_blk9]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 1024 ≤ (i 1).val ∧ (i 1).val < win0_9.index t (1 : Fin 2) * 1024 + 1024; omega

end Cert.KernelIdeal.Cover

end
-- ==== Proof.KernelValue.lean ====
/-
  From the blocks to the array. The kernel runs its body at 128 grid points; point t reads rows 256·t … 256·t + 255 of
  the activations, the four transposed weight matrices and the four bias rows whole, and writes rows
  256·t … 256·t + 255 of the result. Read at an entry, each input block is an entry of an ARGUMENT array: the
  activations' block at (p, k) is the argument at (256·t + p, k); a weight block at (k, a) is the weight argument at
  (a, k), the program having transposed it before the launch; a bias block at (0, a) is the bias argument at a. So what
  point t writes back, by the body's arithmetic read at an entry, is block t of the specification's array of the
  arguments; the 128 blocks cover the result array, which therefore ends holding that array.
-/
import proofs.«124702_j58720792871836_1_alg».proof.Proof.Gen.KernelIdeal.Value
import proofs.«124702_j58720792871836_1_alg».proof.Proof.KernelPay
import proofs.«124702_j58720792871836_1_alg».proof.Proof.KernelCover
import Idealize.ShloMosaic.Lib.Pipeline.Value
import Idealize.ShloMosaic.Lib.StableHlo.Run
import Idealize.ShloMosaic.Lib.ValueLayout
import Idealize.ShloMosaic.Lib.Tactic

noncomputable section

namespace Cert.KernelIdeal.Hand

open Cert.KernelIdeal Cert.KernelIdeal.Gen Cert.KernelIdeal.Value Cert.AttnSpec
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The activations' window moves down one block per point; -/
theorem rows_facts : ∀ t : Fin cfg0.N, win0_0.index t (0 : Fin 2) = t.val ∧ win0_0.index t (1 : Fin 2) = 0 :=
  (by decide +kernel : ∀ t : Fin grid0.N, _)

/-- the weights' and the biases' windows stay on their one block. -/
theorem whole_facts : ∀ t : Fin cfg0.N,
    (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) ∧ (win0_6.index t (0 : Fin 2) = 0 ∧ win0_6.index t (1 : Fin 2) = 0)
    ∧ (win0_7.index t (0 : Fin 2) = 0 ∧ win0_7.index t (1 : Fin 2) = 0) ∧ (win0_8.index t (0 : Fin 2) = 0 ∧ win0_8.index t (1 : Fin 2) = 0) :=
  (by decide +kernel : ∀ t : Fin grid0.N, _)

/-- The activations' block at point t: entry (p, k) is the argument's entry (256·t + p, k). -/
theorem xblk_apply (c : Dev nD) (t : Fin cfg0.N) (p : Fin 256) (k : Fin 1024) (r : Fin 32768) (hr : r.val = t.val * 256 + p.val) :
    (iblk m c 0 t : FVec Ideal S256x1024 .f32) (ix2 p k)
      = (m ((c : Thread nD τ).loc main_arg0) : SX.Idx → EReal) (ix2 r k) := by
  obtain ⟨e0, e1⟩ := rows_facts t
  unfold iblk
  rw [View.read_apply]
  show V m c main_arg0 _ = _
  rw [V_main_arg0]
  refine congrArg (m ((c : Thread nD τ).loc main_arg0) : SX.Idx → EReal) (funext fun ax => Fin.ext ?_)
  match ax with
  | ⟨0, _⟩ => show win0_0.index t (0 : Fin 2) * 256 + 1 * p.val = r.val; rw [e0, hr]; omega
  | ⟨1, _⟩ => show win0_0.index t (1 : Fin 2) * 1024 + 1 * k.val = k.val; rw [e1]; omega

/-- Window 1's block is the whole transposed weight matrix at every point: entry (k, a) is the argument's entry (a, k)
    (the format change is the identity on the extended reals). -/
theorem wq_apply (c : Dev nD) (t : Fin cfg0.N) (a k : Fin 1024) :
    (iblk m c 1 t : FVec Ideal S1024x1024 .bf16) (ix2 k a)
      = (m ((c : Thread nD τ).loc main_arg1) : SW.Idx → EReal) (ix2 a k) := by
  have hi := whole_facts t
  have e : (V m c main_v1 : S1024x1024.Idx → EReal)
      = truncf (F := Ideal) .bf16 (transpose S1024x1024 [1, 0] (m ((c : Thread nD τ).loc main_arg1) : S1024x1024.Idx → EReal) transposes_S1024x1024_S1024x1024_1_0) bitsLt_bf16_f32 := by
    dsimp only [Gen.V, Gen.hostOps0]; after_results
  unfold iblk
  rw [View.read_apply]
  show V m c main_v1 _ = _
  rw [e]
  refine (truncf_apply (φ := FTy.f32) (ψ := FTy.bf16) _ _ _).trans ?_
  have hidx : ((cfg0.win 1).blk t).view.emb (ix2 k a) = (ix2 k a : S1024x1024.Idx) := funext fun ax => Fin.ext (by
    match ax with
    | ⟨0, _⟩ => show win0_1.index t (0 : Fin 2) * 1024 + 1 * k.val = k.val; rw [hi.1.1]; omega
    | ⟨1, _⟩ => show win0_1.index t (1 : Fin 2) * 1024 + 1 * a.val = a.val; rw [hi.1.2]; omega)
  rw [hidx]
  exact transpose_ix2_apply _ _ k a

/-- Window 3's block is the whole transposed weight matrix at every point: entry (k, a) is the argument's entry (a, k)
    (the format change is the identity on the extended reals). -/
theorem wk_apply (c : Dev nD) (t : Fin cfg0.N) (a k : Fin 1024) :
    (iblk m c 3 t : FVec Ideal S1024x1024 .bf16) (ix2 k a)
      = (m ((c : Thread nD τ).loc main_arg3) : SW.Idx → EReal) (ix2 a k) := by
  have hi := whole_facts t
  have e : (V m c main_v3 : S1024x1024.Idx → EReal)
      = truncf (F := Ideal) .bf16 (transpose S1024x1024 [1, 0] (m ((c : Thread nD τ).loc main_arg3) : S1024x1024.Idx → EReal) transposes_S1024x1024_S1024x1024_1_0) bitsLt_bf16_f32 := by
    dsimp only [Gen.V, Gen.hostOps0]; after_results
  unfold iblk
  rw [View.read_apply]
  show V m c main_v3 _ = _
  rw [e]
  refine (truncf_apply (φ := FTy.f32) (ψ := FTy.bf16) _ _ _).trans ?_
  have hidx : ((cfg0.win 3).blk t).view.emb (ix2 k a) = (ix2 k a : S1024x1024.Idx) := funext fun ax => Fin.ext (by
    match ax with
    | ⟨0, _⟩ => show win0_3.index t (0 : Fin 2) * 1024 + 1 * k.val = k.val; rw [hi.2.2.1.1]; omega
    | ⟨1, _⟩ => show win0_3.index t (1 : Fin 2) * 1024 + 1 * a.val = a.val; rw [hi.2.2.1.2]; omega)
  rw [hidx]
  exact transpose_ix2_apply _ _ k a

/-- Window 5's block is the whole transposed weight matrix at every point: entry (k, a) is the argument's entry (a, k)
    (the format change is the identity on the extended reals). -/
theorem wv_apply (c : Dev nD) (t : Fin cfg0.N) (a k : Fin 1024) :
    (iblk m c 5 t : FVec Ideal S1024x1024 .bf16) (ix2 k a)
      = (m ((c : Thread nD τ).loc main_arg5) : SW.Idx → EReal) (ix2 a k) := by
  have hi := whole_facts t
  have e : (V m c main_v5 : S1024x1024.Idx → EReal)
      = truncf (F := Ideal) .bf16 (transpose S1024x1024 [1, 0] (m ((c : Thread nD τ).loc main_arg5) : S1024x1024.Idx → EReal) transposes_S1024x1024_S1024x1024_1_0) bitsLt_bf16_f32 := by
    dsimp only [Gen.V, Gen.hostOps0]; after_results
  unfold iblk
  rw [View.read_apply]
  show V m c main_v5 _ = _
  rw [e]
  refine (truncf_apply (φ := FTy.f32) (ψ := FTy.bf16) _ _ _).trans ?_
  have hidx : ((cfg0.win 5).blk t).view.emb (ix2 k a) = (ix2 k a : S1024x1024.Idx) := funext fun ax => Fin.ext (by
    match ax with
    | ⟨0, _⟩ => show win0_5.index t (0 : Fin 2) * 1024 + 1 * k.val = k.val; rw [hi.2.2.2.2.1.1]; omega
    | ⟨1, _⟩ => show win0_5.index t (1 : Fin 2) * 1024 + 1 * a.val = a.val; rw [hi.2.2.2.2.1.2]; omega)
  rw [hidx]
  exact transpose_ix2_apply _ _ k a

/-- Window 7's block is the whole transposed weight matrix at every point: entry (k, a) is the argument's entry (a, k)
    (the format change is the identity on the extended reals). -/
theorem wo_apply (c : Dev nD) (t : Fin cfg0.N) (a k : Fin 1024) :
    (iblk m c 7 t : FVec Ideal S1024x1024 .bf16) (ix2 k a)
      = (m ((c : Thread nD τ).loc main_arg7) : SW.Idx → EReal) (ix2 a k) := by
  have hi := whole_facts t
  have e : (V m c main_v7 : S1024x1024.Idx → EReal)
      = truncf (F := Ideal) .bf16 (transpose S1024x1024 [1, 0] (m ((c : Thread nD τ).loc main_arg7) : S1024x1024.Idx → EReal) transposes_S1024x1024_S1024x1024_1_0) bitsLt_bf16_f32 := by
    dsimp only [Gen.V, Gen.hostOps0]; after_results
  unfold iblk
  rw [View.read_apply]
  show V m c main_v7 _ = _
  rw [e]
  refine (truncf_apply (φ := FTy.f32) (ψ := FTy.bf16) _ _ _).trans ?_
  have hidx : ((cfg0.win 7).blk t).view.emb (ix2 k a) = (ix2 k a : S1024x1024.Idx) := funext fun ax => Fin.ext (by
    match ax with
    | ⟨0, _⟩ => show win0_7.index t (0 : Fin 2) * 1024 + 1 * k.val = k.val; rw [hi.2.2.2.2.2.2.1.1]; omega
    | ⟨1, _⟩ => show win0_7.index t (1 : Fin 2) * 1024 + 1 * a.val = a.val; rw [hi.2.2.2.2.2.2.1.2]; omega)
  rw [hidx]
  exact transpose_ix2_apply _ _ k a

/-- Window 2's block is the bias as one row, at every point: entry (0, a) is the argument's entry a. -/
theorem bq_apply (c : Dev nD) (t : Fin cfg0.N) (a : Fin 1024) :
    (iblk m c 2 t : FVec Ideal S1x1024 .f32) (ix2 (0 : Fin 1) a)
      = (m ((c : Thread nD τ).loc main_arg2) : SB.Idx → EReal) (ix1 a) := by
  have hi := whole_facts t
  have e : (V m c main_v8 : S1x1024.Idx → EReal)
      = shapeCast S1x1024 (m ((c : Thread nD τ).loc main_arg2) : S1024.Idx → EReal) shapeCasts_S1024_S1x1024 := by
    dsimp only [Gen.V, Gen.hostOps0]; after_results; rfl
  unfold iblk
  rw [View.read_apply]
  show V m c main_v8 _ = _
  rw [e]
  have hidx : ((cfg0.win 2).blk t).view.emb (ix2 (0 : Fin 1) a) = (ix2 (0 : Fin 1) a : S1x1024.Idx) := funext fun ax => Fin.ext (by
    match ax with
    | ⟨0, _⟩ => show win0_2.index t (0 : Fin 2) * 1 + 1 * 0 = 0; rw [hi.2.1.1]
    | ⟨1, _⟩ => show win0_2.index t (1 : Fin 2) * 1024 + 1 * a.val = a.val; rw [hi.2.1.2]; omega)
  rw [hidx]
  exact shapeCast_a_1a_apply _ _ (0 : Fin 1) a

/-- Window 4's block is the bias as one row, at every point: entry (0, a) is the argument's entry a. -/
theorem bk_apply (c : Dev nD) (t : Fin cfg0.N) (a : Fin 1024) :
    (iblk m c 4 t : FVec Ideal S1x1024 .f32) (ix2 (0 : Fin 1) a)
      = (m ((c : Thread nD τ).loc main_arg4) : SB.Idx → EReal) (ix1 a) := by
  have hi := whole_facts t
  have e : (V m c main_v9 : S1x1024.Idx → EReal)
      = shapeCast S1x1024 (m ((c : Thread nD τ).loc main_arg4) : S1024.Idx → EReal) shapeCasts_S1024_S1x1024 := by
    dsimp only [Gen.V, Gen.hostOps0]; after_results; rfl
  unfold iblk
  rw [View.read_apply]
  show V m c main_v9 _ = _
  rw [e]
  have hidx : ((cfg0.win 4).blk t).view.emb (ix2 (0 : Fin 1) a) = (ix2 (0 : Fin 1) a : S1x1024.Idx) := funext fun ax => Fin.ext (by
    match ax with
    | ⟨0, _⟩ => show win0_4.index t (0 : Fin 2) * 1 + 1 * 0 = 0; rw [hi.2.2.2.1.1]
    | ⟨1, _⟩ => show win0_4.index t (1 : Fin 2) * 1024 + 1 * a.val = a.val; rw [hi.2.2.2.1.2]; omega)
  rw [hidx]
  exact shapeCast_a_1a_apply _ _ (0 : Fin 1) a

/-- Window 6's block is the bias as one row, at every point: entry (0, a) is the argument's entry a. -/
theorem bv_apply (c : Dev nD) (t : Fin cfg0.N) (a : Fin 1024) :
    (iblk m c 6 t : FVec Ideal S1x1024 .f32) (ix2 (0 : Fin 1) a)
      = (m ((c : Thread nD τ).loc main_arg6) : SB.Idx → EReal) (ix1 a) := by
  have hi := whole_facts t
  have e : (V m c main_v10 : S1x1024.Idx → EReal)
      = shapeCast S1x1024 (m ((c : Thread nD τ).loc main_arg6) : S1024.Idx → EReal) shapeCasts_S1024_S1x1024 := by
    dsimp only [Gen.V, Gen.hostOps0]; after_results; rfl
  unfold iblk
  rw [View.read_apply]
  show V m c main_v10 _ = _
  rw [e]
  have hidx : ((cfg0.win 6).blk t).view.emb (ix2 (0 : Fin 1) a) = (ix2 (0 : Fin 1) a : S1x1024.Idx) := funext fun ax => Fin.ext (by
    match ax with
    | ⟨0, _⟩ => show win0_6.index t (0 : Fin 2) * 1 + 1 * 0 = 0; rw [hi.2.2.2.2.2.1.1]
    | ⟨1, _⟩ => show win0_6.index t (1 : Fin 2) * 1024 + 1 * a.val = a.val; rw [hi.2.2.2.2.2.1.2]; omega)
  rw [hidx]
  exact shapeCast_a_1a_apply _ _ (0 : Fin 1) a

/-- Window 8's block is the bias as one row, at every point: entry (0, a) is the argument's entry a. -/
theorem bo_apply (c : Dev nD) (t : Fin cfg0.N) (a : Fin 1024) :
    (iblk m c 8 t : FVec Ideal S1x1024 .f32) (ix2 (0 : Fin 1) a)
      = (m ((c : Thread nD τ).loc main_arg8) : SB.Idx → EReal) (ix1 a) := by
  have hi := whole_facts t
  have e : (V m c main_v11 : S1x1024.Idx → EReal)
      = shapeCast S1x1024 (m ((c : Thread nD τ).loc main_arg8) : S1024.Idx → EReal) shapeCasts_S1024_S1x1024 := by
    dsimp only [Gen.V, Gen.hostOps0]; after_results; rfl
  unfold iblk
  rw [View.read_apply]
  show V m c main_v11 _ = _
  rw [e]
  have hidx : ((cfg0.win 8).blk t).view.emb (ix2 (0 : Fin 1) a) = (ix2 (0 : Fin 1) a : S1x1024.Idx) := funext fun ax => Fin.ext (by
    match ax with
    | ⟨0, _⟩ => show win0_8.index t (0 : Fin 2) * 1 + 1 * 0 = 0; rw [hi.2.2.2.2.2.2.2.1]
    | ⟨1, _⟩ => show win0_8.index t (1 : Fin 2) * 1024 + 1 * a.val = a.val; rw [hi.2.2.2.2.2.2.2.2]; omega)
  rw [hidx]
  exact shapeCast_a_1a_apply _ _ (0 : Fin 1) a

/-- The specification's array of the argument arrays on core c. -/
abbrev result (c : Dev nD) : Buf (Elt Ideal) ((c : Thread nD τ).loc main_v12) :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What the body stores at point t, at entry (p, j) of its block, is the specification's array at (256·t + p, j). -/
theorem stored_apply (c : Dev nD) (t : Fin cfg0.N) (p : Fin 256) (j : Fin 1024) (r : Fin 32768) (hr : r.val = t.val * 256 + p.val) :
    k0_pay1 (F := Ideal) (k0_pay3 (iblk m c 0 t) (iblk m c 5 t) (iblk m c 6 t))
        (k0_pay4 (iblk m c 0 t) (iblk m c 1 t) (iblk m c 2 t) (iblk m c 3 t) (iblk m c 4 t))
        (k0_pay5 (iblk m c 0 t) (iblk m c 1 t) (iblk m c 2 t) (iblk m c 3 t) (iblk m c 4 t)) (iblk m c 7 t) (iblk m c 8 t) (ix2 p j)
      = result m c (ix2 r j) := by
  refine (Pay.body_apply (iblk m c 0 t) (iblk m c 1 t) (iblk m c 2 t) (iblk m c 3 t) (iblk m c 4 t) (iblk m c 5 t) (iblk m c 6 t)
    (iblk m c 7 t) (iblk m c 8 t) p j).trans ?_
  show _ = outAt _ _ _ _ _ _ _ _ _ r j
  unfold outAt
  have hx : Pay.xrow (iblk m c 0 t) p = fun k => (m ((c : Thread nD τ).loc main_arg0) : SX.Idx → EReal) (ix2 r k) :=
    funext fun k => xblk_apply m c t p k r hr
  have h1 : Pay.wmat (iblk m c 1 t) = fun a k => (m ((c : Thread nD τ).loc main_arg1) : SW.Idx → EReal) (ix2 a k) :=
    funext fun a => funext fun k => wq_apply m c t a k
  have h3 : Pay.wmat (iblk m c 3 t) = fun a k => (m ((c : Thread nD τ).loc main_arg3) : SW.Idx → EReal) (ix2 a k) :=
    funext fun a => funext fun k => wk_apply m c t a k
  have h5 : Pay.wmat (iblk m c 5 t) = fun a k => (m ((c : Thread nD τ).loc main_arg5) : SW.Idx → EReal) (ix2 a k) :=
    funext fun a => funext fun k => wv_apply m c t a k
  have h7 : Pay.wmat (iblk m c 7 t) = fun a k => (m ((c : Thread nD τ).loc main_arg7) : SW.Idx → EReal) (ix2 a k) :=
    funext fun a => funext fun k => wo_apply m c t a k
  have h2 : Pay.brow (iblk m c 2 t) = fun a => (m ((c : Thread nD τ).loc main_arg2) : SB.Idx → EReal) (ix1 a) :=
    funext fun a => bq_apply m c t a
  have h4 : Pay.brow (iblk m c 4 t) = fun a => (m ((c : Thread nD τ).loc main_arg4) : SB.Idx → EReal) (ix1 a) :=
    funext fun a => bk_apply m c t a
  have h6 : Pay.brow (iblk m c 6 t) = fun a => (m ((c : Thread nD τ).loc main_arg6) : SB.Idx → EReal) (ix1 a) :=
    funext fun a => bv_apply m c t a
  have h8 : Pay.brow (iblk m c 8 t) = fun a => (m ((c : Thread nD τ).loc main_arg8) : SB.Idx → EReal) (ix1 a) :=
    funext fun a => bo_apply m c t a
  rw [hx, h1, h2, h3, h4, h5, h6, h7, h8]

/-- WHAT POINT t WRITES BACK is block t of the specification's array. -/
theorem flushed_eq (c : Dev nD) (t : Fin cfg0.N) :
    (dats m 0 c).flushed 9 t = ((cfg0.win 9).blk t).view.read (Elt Ideal) (result m c) := by
  rw [flushed9]
  unfold out0_9
  rw [View.canon_unit_zero hz]
  simp only [View.ld_unit_zero (S := S256x1024) hz, View.ld_unit_zero (S := S1024x1024) hz, View.ld_unit_zero (S := S1x1024) hz]
  obtain ⟨e0, e1⟩ := Cover.idx9 t
  funext y
  have ht : t.val < 128 := by have := t.isLt; have hN : cfg0.N = 128 := N_0; omega
  have hy0 : (y 0).val < 256 := (y 0).isLt
  have hy1 : (y 1).val < 1024 := (y 1).isLt
  have hy : y = (ix2 ⟨(y 0).val, hy0⟩ ⟨(y 1).val, hy1⟩ : S256x1024.Idx) := funext fun ax => Fin.ext (by
    match ax with
    | ⟨0, _⟩ => rfl
    | ⟨1, _⟩ => rfl)
  rw [View.read_apply]
  have hemb : ((cfg0.win 9).blk t).view.emb y
      = (ix2 (⟨t.val * 256 + (y 0).val, by omega⟩ : Fin 32768) (⟨(y 1).val, hy1⟩ : Fin 1024) : S32768x1024.Idx) := funext fun ax => Fin.ext (by
    match ax with
    | ⟨0, _⟩ => show win0_9.index t (0 : Fin 2) * 256 + 1 * (y 0).val = t.val * 256 + (y 0).val; rw [e0]; omega
    | ⟨1, _⟩ => show win0_9.index t (1 : Fin 2) * 1024 + 1 * (y 1).val = (y 1).val; rw [e1]; omega)
  rw [hemb]
  exact (congrArg _ hy).trans (stored_apply m c t ⟨(y 0).val, hy0⟩ ⟨(y 1).val, hy1⟩ ⟨t.val * 256 + (y 0).val, by omega⟩ rfl)

/-- THE ARRAY after the run: the 128 blocks cover it, so it is the specification's array. -/
theorem final (c : Dev nD) : (dats m 0 c).arrAt 9 cfg0.N = result m c :=
  (dats m 0 c).arrAt_eq_of_cover 9 (result m c) (fun t _ => flushed_eq m c t) Cover.cover9

/-- The run, read: the result array at the specification's array of the arguments, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩) (run_blocks m ρ)

end Cert.KernelIdeal.Hand

end
-- ==== Proof.RefValue.lean ====
/-
  The reference side of the certificate: the value the reference program writes is the specification's array.

  The reference is read one operation at a time (the generated module `Read`); here its stages are read at explicit
  coordinates — a row `r`, a head `h`, a lane `d`, a column `j` — bottom-up, each stage from the one before:
  the three linear layers, their reading as 16 heads of 64 lanes, the scaled scores, the row maximum (a fold of `max`
  over the key heads from the word of `−∞`), the exponentials, their sum, the quotient, the mix with the values, the
  reshape back to a row of 1024 entries, and the last linear layer.
-/
import proofs.«124702_j58720792871836_1_alg».proof.Proof.Gen.ReferenceIdeal.Read
import proofs.«124702_j58720792871836_1_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.AttnSpec (hd headOf laneOf proj score rowMax expo denom prob mix attnRow)

/-! ## A linear layer at a row and a column

The four linear layers of the program are the same three operations on different operands: a contraction with the
transposed weight, the bias broadcast along the rows, and their sum. -/

/-- The left operand of the contraction at (r, j), term k, is the row's entry k. -/
theorem lidx_v1 (r : Fin 32768) (j k : Fin 1024) : lidx_main_v1 (ix2 r j) k = ix2 r k :=
  funext fun a => Fin.ext (by match a with | ⟨0, _⟩ => rfl | ⟨1, _⟩ => rfl)
/-- The right operand is the transposed weight at (k, j): the weight at (j, k). -/
theorem ridx_v1 (r : Fin 32768) (j k : Fin 1024) : idx_main_v0 (ridx_main_v1 (ix2 r j) k) = ix2 j k :=
  funext fun a => Fin.ext (by match a with | ⟨0, _⟩ => rfl | ⟨1, _⟩ => rfl)
/-- The broadcast bias at (r, j) is the bias at j. -/
theorem bidx_v3 (r : Fin 32768) (j : Fin 1024) : idx_main_v2 (idx_main_v3 (ix2 r j)) = ix1 j :=
  funext fun a => Fin.ext (by match a with | ⟨0, _⟩ => rfl)

/-- The first linear layer at (r, j), for any operands: the specification's `proj` on row r. -/
theorem linear_at (y : (⟨S32768x1024, .f32⟩ : BufTy).Contents (Elt Ideal)) (W : (⟨S1024x1024, .f32⟩ : BufTy).Contents (Elt Ideal))
    (b : (⟨S1024, .f32⟩ : BufTy).Contents (Elt Ideal)) (r : Fin 32768) (j : Fin 1024) :
    val_main_v4 (F := Ideal) y W b (ix2 r j)
      = proj (fun k => y (ix2 r k)) (fun a c => W (ix2 a c)) (fun a => b (ix1 a)) j := by
  rw [val_main_v4_apply, val_main_v1_apply, val_main_v3_apply, val_main_v2_apply]
  simp only [val_main_v0_apply, lidx_v1, ridx_v1, bidx_v3]
  rfl

/-- The key layer and the value layer are the same three operations as the query layer. -/
theorem v10_eq (x0 : (⟨S32768x1024, .f32⟩ : BufTy).Contents (Elt Ideal)) (x3 : (⟨S1024x1024, .f32⟩ : BufTy).Contents (Elt Ideal))
    (x4 : (⟨S1024, .f32⟩ : BufTy).Contents (Elt Ideal)) : val_main_v10 (F := Ideal) x0 x3 x4 = val_main_v4 (F := Ideal) x0 x3 x4 := rfl
theorem v16_eq (x0 : (⟨S32768x1024, .f32⟩ : BufTy).Contents (Elt Ideal)) (x5 : (⟨S1024x1024, .f32⟩ : BufTy).Contents (Elt Ideal))
    (x6 : (⟨S1024, .f32⟩ : BufTy).Contents (Elt Ideal)) : val_main_v16 (F := Ideal) x0 x5 x6 = val_main_v4 (F := Ideal) x0 x5 x6 := rfl

/-- A linear layer's row r, as the specification writes it from the arrays. -/
abbrev lin (y : (⟨S32768x1024, .f32⟩ : BufTy).Contents (Elt Ideal)) (W : (⟨S1024x1024, .f32⟩ : BufTy).Contents (Elt Ideal)) (b : (⟨S1024, .f32⟩ : BufTy).Contents (Elt Ideal)) (r : Fin 32768) : Fin 1024 → EReal :=
  proj (fun k => y (ix2 r k)) (fun a c => W (ix2 a c)) (fun a => b (ix1 a))

/-! ## The heads: a row of 1024 entries read as 16 heads of 64 lanes -/

/-- Entry (r, h, d) of the reshaped array is entry (r, 64 h + d) of the row. -/
theorem idx_v5 (r : Fin 32768) (h : Fin 16) (d : Fin 64) : idx_main_v5 (ix3 r h d) = ix2 r (hd h d) :=
  funext fun a => Fin.ext (by
    have hh : h.val < 16 := h.isLt
    have hd' : d.val < 64 := d.isLt
    match a with
    | ⟨0, _⟩ => show ((r.val * 16 + h.val) * 64 + d.val) / 1024 = r.val; omega
    | ⟨1, _⟩ => show ((r.val * 16 + h.val) * 64 + d.val) % 1024 = h.val * 64 + d.val; omega)

theorem head_at (y : (⟨S32768x1024, .f32⟩ : BufTy).Contents (Elt Ideal)) (W : (⟨S1024x1024, .f32⟩ : BufTy).Contents (Elt Ideal)) (b : (⟨S1024, .f32⟩ : BufTy).Contents (Elt Ideal)) (r : Fin 32768) (h : Fin 16) (d : Fin 64) :
    val_main_v5 (F := Ideal) y W b (ix3 r h d) = lin y W b r (hd h d) := by
  rw [val_main_v5_apply, idx_v5, linear_at]

/-- The key and value heads are the same reshape of the same layer. -/
theorem v11_eq (y : (⟨S32768x1024, .f32⟩ : BufTy).Contents (Elt Ideal)) (W : (⟨S1024x1024, .f32⟩ : BufTy).Contents (Elt Ideal)) (b : (⟨S1024, .f32⟩ : BufTy).Contents (Elt Ideal)) : val_main_v11 (F := Ideal) y W b = val_main_v5 (F := Ideal) y W b := rfl
theorem v17_eq (y : (⟨S32768x1024, .f32⟩ : BufTy).Contents (Elt Ideal)) (W : (⟨S1024x1024, .f32⟩ : BufTy).Contents (Elt Ideal)) (b : (⟨S1024, .f32⟩ : BufTy).Contents (Elt Ideal)) : val_main_v17 (F := Ideal) y W b = val_main_v5 (F := Ideal) y W b := rfl

/-! ## The scores -/

theorem lidx_v18 (r : Fin 32768) (h H : Fin 16) (d : Fin 64) : lidx_main_v18 (ix3 r h H) d = ix3 r h d :=
  funext fun a => Fin.ext (by match a with | ⟨0, _⟩ => rfl | ⟨1, _⟩ => rfl | ⟨2, _⟩ => rfl)
theorem ridx_v18 (r : Fin 32768) (h H : Fin 16) (d : Fin 64) : ridx_main_v18 (ix3 r h H) d = ix3 r H d :=
  funext fun a => Fin.ext (by match a with | ⟨0, _⟩ => rfl | ⟨1, _⟩ => rfl | ⟨2, _⟩ => rfl)

/-- The scaled score of query head h against key head H, on row r. -/
theorem score_at (x0 : (⟨S32768x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (r : Fin 32768) (h H : Fin 16) :
    val_main_v20 (F := Ideal) x0 x1 x2 x3 x4 (ix3 r h H) = score (lin x0 x1 x2 r) (lin x0 x3 x4 r) h H := by
  rw [val_main_v20_apply, val_main_v18_apply, val_main_v19_apply, val_main_cst_apply, v11_eq]
  simp only [lidx_v18, ridx_v18, head_at]
  rfl

/-! ## The row maximum

The reduction over the key heads is, at (r, h), the fold of `max` from the word of `−∞` over the sixteen scores of
that row and head. -/

theorem reduces_d2 : S32768x16x16.Reduces [2] S32768x16 := by decide

/-- The index (r, h) with the key head H put back on the reduced axis. -/
theorem lift_d2 (r : Fin 32768) (h H : Fin 16) : reduces_d2.lift (ix2 r h) H = ix3 r h H :=
  funext fun a => Fin.ext (by match a with | ⟨0, _⟩ => rfl | ⟨1, _⟩ => rfl | ⟨2, _⟩ => rfl)

theorem reduce_max_at (x : (⟨S32768x16x16, .f32⟩ : BufTy).Contents (Elt Ideal)) (r : Fin 32768) (h : Fin 16) :
    Host.reduce (FloatOps.maximumf (F := Ideal) (φ := .f32)) x (val_main_cst_0 (F := Ideal))
        reducesTo_S32768x16x16_S32768x16_d2 h_S_ (ix2 r h)
      = (Finset.univ : Finset (Fin 16)).fold max Cert.AttnSpec.negInf (fun H => x (ix3 r h H)) := by
  refine (Host.reduce_eq_fold_single (FloatOps.maximumf (F := Ideal) (φ := .f32)) x (val_main_cst_0 (F := Ideal))
    reducesTo_S32768x16x16_S32768x16_d2 reduces_d2 h_S_ (ix2 r h)).trans ?_
  have e : x ∘ reduces_d2.lift (ix2 r h) = fun H : Fin 16 => x (ix3 r h H) :=
    funext fun H => congrArg x (lift_d2 r h H)
  exact congrArg (fun g : Fin 16 → EReal => (Finset.univ : Finset (Fin 16)).fold max Cert.AttnSpec.negInf g) e

/-- The maximum both programs subtract: `max` of `−∞` and that fold. -/
theorem max_at (x0 : (⟨S32768x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (r : Fin 32768) (h : Fin 16) :
    val_main_v23 (F := Ideal) x0 x1 x2 x3 x4 (ix2 r h) = rowMax (score (lin x0 x1 x2 r) (lin x0 x3 x4 r) h) := by
  rw [val_main_v23_apply, val_main_v22_apply, val_main_cst_1_apply]
  unfold val_main_v21
  rw [reduce_max_at]
  simp only [score_at]
  rfl

/-! ## The exponentials, their sum, and the weights -/

/-- The maximum broadcast back along the key heads. -/
theorem idx_v25 (r : Fin 32768) (h H : Fin 16) : idx_main_v24 (idx_main_v25 (ix3 r h H)) = ix2 r h :=
  funext fun a => Fin.ext (by match a with | ⟨0, _⟩ => rfl | ⟨1, _⟩ => rfl)

theorem expo_at (x0 : (⟨S32768x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (r : Fin 32768) (h H : Fin 16) :
    val_main_v27 (F := Ideal) x0 x1 x2 x3 x4 (ix3 r h H) = expo (lin x0 x1 x2 r) (lin x0 x3 x4 r) h H := by
  rw [val_main_v27_apply, val_main_v26_apply, val_main_v25_apply, val_main_v24_apply, idx_v25, max_at, score_at]
  rfl

theorem idx_v28 (r : Fin 32768) (h H : Fin 16) : idx_main_v28 (ix2 r h) H = ix3 r h H :=
  funext fun a => Fin.ext (by match a with | ⟨0, _⟩ => rfl | ⟨1, _⟩ => rfl | ⟨2, _⟩ => rfl)

/-- The sum of a row's exponentials; it starts from the word of zero. -/
theorem denom_at (x0 : (⟨S32768x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (r : Fin 32768) (h : Fin 16) :
    val_main_v28 (F := Ideal) x0 x1 x2 x3 x4 (ix2 r h) = denom (lin x0 x1 x2 r) (lin x0 x3 x4 r) h := by
  rw [val_main_v28_apply, val_main_cst_2_apply, Ideal.ofBits_def, Ideal.ofBits_zero_f32, zero_add]
  simp only [idx_v28, expo_at]
  rfl

/-- The sum broadcast back along the key heads. -/
theorem idx_v30 (r : Fin 32768) (h H : Fin 16) : idx_main_v29 (idx_main_v30 (ix3 r h H)) = ix2 r h :=
  funext fun a => Fin.ext (by match a with | ⟨0, _⟩ => rfl | ⟨1, _⟩ => rfl)

theorem prob_at (x0 : (⟨S32768x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (r : Fin 32768) (h H : Fin 16) :
    val_main_v31 (F := Ideal) x0 x1 x2 x3 x4 (ix3 r h H) = prob (lin x0 x1 x2 r) (lin x0 x3 x4 r) h H := by
  rw [val_main_v31_apply, val_main_v30_apply, val_main_v29_apply, idx_v30, denom_at, expo_at]
  rfl

/-! ## The mix with the values, and the reshape back to a row -/

theorem lidx_v32 (r : Fin 32768) (h H : Fin 16) (d : Fin 64) : lidx_main_v32 (ix3 r h d) H = ix3 r h H :=
  funext fun a => Fin.ext (by match a with | ⟨0, _⟩ => rfl | ⟨1, _⟩ => rfl | ⟨2, _⟩ => rfl)
theorem ridx_v32 (r : Fin 32768) (h H : Fin 16) (d : Fin 64) : ridx_main_v32 (ix3 r h d) H = ix3 r H d :=
  funext fun a => Fin.ext (by match a with | ⟨0, _⟩ => rfl | ⟨1, _⟩ => rfl | ⟨2, _⟩ => rfl)

/-- Lane d of head h of the mixed values: the weights of head h against the values' lane d. -/
theorem mixhead_at (x0 : (⟨S32768x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (r : Fin 32768) (h : Fin 16) (d : Fin 64) :
    val_main_v32 (F := Ideal) x0 x1 x2 x3 x4 x5 x6 (ix3 r h d)
      = ∑ H : Fin 16, prob (lin x0 x1 x2 r) (lin x0 x3 x4 r) h H * lin x0 x5 x6 r (hd H d) := by
  rw [val_main_v32_apply, v17_eq]
  simp only [lidx_v32, ridx_v32, prob_at, head_at]

/-- Entry (r, j) of the row is lane j mod 64 of head j / 64. -/
theorem idx_v33 (r : Fin 32768) (j : Fin 1024) : idx_main_v33 (ix2 r j) = ix3 r (headOf j) (laneOf j) :=
  funext fun a => Fin.ext (by
    have hj : j.val < 1024 := j.isLt
    match a with
    | ⟨0, _⟩ => show (r.val * 1024 + j.val) / 1024 = r.val; omega
    | ⟨1, _⟩ => show (r.val * 1024 + j.val) / 64 % 16 = j.val / 64; omega
    | ⟨2, _⟩ => show (r.val * 1024 + j.val) % 64 = j.val % 64; omega)

theorem mix_at (x0 : (⟨S32768x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (r : Fin 32768) (j : Fin 1024) :
    val_main_v33 (F := Ideal) x0 x1 x2 x3 x4 x5 x6 (ix2 r j)
      = mix (lin x0 x1 x2 r) (lin x0 x3 x4 r) (lin x0 x5 x6 r) j := by
  rw [val_main_v33_apply, idx_v33, mixhead_at]
  rfl

/-! ## The last linear layer, and the whole array -/

/-- The output layer is the same three operations as the first, on the mixed rows. -/
theorem v38_eq (x0 : (⟨S32768x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) :
    val_main_v38 (F := Ideal) x0 x1 x2 x3 x4 x5 x6 x7 x8
      = val_main_v4 (F := Ideal) (val_main_v33 (F := Ideal) x0 x1 x2 x3 x4 x5 x6) x7 x8 := rfl

theorem out_at (x0 : (⟨S32768x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (r : Fin 32768) (j : Fin 1024) :
    val_main_v38 (F := Ideal) x0 x1 x2 x3 x4 x5 x6 x7 x8 (ix2 r j)
      = Cert.AttnSpec.outAt x0 x1 x2 x3 x4 x5 x6 x7 x8 r j := by
  rw [v38_eq, linear_at]
  simp only [mix_at]
  rfl

/-- The reference's result is the specification's array. -/
theorem val_eq_out (x0 : (⟨S32768x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) :
    Cert.ReferenceIdeal.Read.val_main_v38 (F := Ideal) x0 x1 x2 x3 x4 x5 x6 x7 x8 = Cert.AttnSpec.out x0 x1 x2 x3 x4 x5 x6 x7 x8 := by
  funext i
  obtain ⟨r, j, rfl⟩ : ∃ (r : Fin 32768) (j : Fin 1024), i = ix2 r j := ⟨i 0, i 1, eq_ix2 i⟩
  rw [Cert.AttnSpec.out_ix2]
  exact out_at x0 x1 x2 x3 x4 x5 x6 x7 x8 r j

end Cert.ReferenceIdeal.RefValue

end
-- ==== Proof.lean ====
/-
  Per-token attention across heads, fused in one kernel, against its plain reference: the two programs end with
  equal result arrays over the extended reals.

  Both compute, for each of the 32768 rows x of the activations, the same function of x and of the four linear
  layers' weights and biases (Proof/Spec.lean): q, k, v = x·Wᵀ + b read as 16 heads of 64 lanes; the scores
  (q_h · k_H) / 8; the softmax over the key heads H (maximum from −∞, differences, exponentials, their sum, the
  quotient); the value heads mixed by the weights; the result through the output layer. The kernel does this for 256
  rows at each of 128 grid points, on weights the program transposed beforehand; the reference does it for the whole
  array at once. At the ideal values a change of float format is the identity, a matrix product accumulated into
  zeros and the host's contraction are the same finite sum, a lane reduction and the host's reduction the same fold:
  the two sides agree operation by operation, and no algebraic law (hence no finiteness of the inputs) is needed.

  * The kernel's side: the body's arithmetic at an entry of its block is the row function on that row of the block
    (Proof/KernelContract.lean, KernelLayout.lean, KernelPay.lean); each block entry is an entry of an argument array,
    what each point writes back is its block of the specification's array, and the blocks cover the result
    (Proof/KernelCover.lean, KernelValue.lean, over the generated frame run with the result array named).
  * The reference's side: its generated run, read one operation at a time, is the specification's array
    (Proof/RefValue.lean).
  * The frames of the two kernel programs are the generated frame certificates; the reference's is its run with the
    result dropped. The idealization rewrote nothing, so `preserves` is trivial.
-/
import proofs.«124702_j58720792871836_1_alg».proof.Defs
import proofs.«124702_j58720792871836_1_alg».proof.Proof.Gen.Kernel
import proofs.«124702_j58720792871836_1_alg».proof.Proof.Gen.Kernel.Frame
import proofs.«124702_j58720792871836_1_alg».proof.Proof.Gen.KernelIdeal
import proofs.«124702_j58720792871836_1_alg».proof.Proof.Gen.KernelIdeal.Frame
import proofs.«124702_j58720792871836_1_alg».proof.Proof.Gen.KernelIdeal.Value
import proofs.«124702_j58720792871836_1_alg».proof.Proof.Gen.ReferenceIdeal
import proofs.«124702_j58720792871836_1_alg».proof.Proof.Gen.ReferenceIdeal.Run
import proofs.«124702_j58720792871836_1_alg».proof.Proof.Gen.ReferenceIdeal.Read
import proofs.«124702_j58720792871836_1_alg».proof.Proof.Gen.Pre_finite_inputs
import proofs.«124702_j58720792871836_1_alg».proof.Proof.KernelValue
import proofs.«124702_j58720792871836_1_alg».proof.Proof.RefValue
import Idealize.ShloMosaic.Adequacy
import Idealize.ShloMosaic.Init

noncomputable section

namespace Cert.Proof

open Idealize.ShloMosaic Idealize.SL.Sem

/-- The word-level kernel runs and leaves its arguments unchanged: the generated frame certificate. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the specification's array of those arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.RefValue.val_eq_out]
  obtain ⟨h0, h1, h2, h3, h4, h5, h6, h7, h8⟩ := hagree c
  rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
